-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x35 : Shape := ⟨2, ![100000, 35]⟩
abbrev S2x1600000 : Shape := ⟨2, ![2, 1600000]⟩
abbrev S35x64 : Shape := ⟨2, ![35, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x35 : S_.BroadcastsInDim S100000x35 (![] : Fin 0 → Fin S100000x35.rank)
  reducesTo_S100000x35_S_d0_1 : S100000x35.ReducesTo [0, 1] S_
  h_S_ : 0 < S_.numel
  bcast_S_S35x64 : S_.BroadcastsInDim S35x64 (![] : Fin 0 → Fin S35x64.rank)
  reducesTo_S35x64_S_d0_1 : S35x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64x64 .f32) (main_arg6 : FVec F S64 .f32) (main_arg7 : FVec F S64x64 .f32) (main_arg8 : FVec F S64x1 .f32) (main_arg9 : FVec F S1 .f32) (main_v13 : IVec S_ 1) (main_v16 : IVec S35x64 1) : IVec S_ 1 :=
  let main_c_5 : IVec S_ 1 := constantI S_ 1 1#1
  let main_v17 : IVec S_ 1 := (fun x v => Host.reduce IntOp.andi x v reducesTo_S35x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S100000x35 .f32) (main_arg1 : IVec S2x1600000 32) (main_arg2 : FVec F S35x64 .f32) (main_arg3 : FVec F S64 .f32) (main_arg4 : FVec F S35x64 .f32) (main_arg5 : FVec F S64x64 .f32) (main_arg6 : FVec F S64 .f32) (main_arg7 : FVec F S64x64 .f32) (main_arg8 : FVec F S64x1 .f32) (main_arg9 : FVec F S1 .f32) : IVec S_ 1 :=
  let main_v0 : FVec F S100000x35 .f32 := Host.absf main_arg0
  let main_cst : FVec F S_ .f32 := constant S_ .f32 0x7F800000#32
  let main_v1 : FVec F S100000x35 .f32 := broadcastInDim S100000x35 ![] bcast_S_S100000x35 main_cst
  let main_v2 : IVec S100000x35 1 := cmpf .olt main_v0 main_v1
  let main_c : IVec S_ 1 := constantI S_ 1 1#1
  let main_v3 : IVec S_ 1 := (fun x v => Host.reduce IntOp.andi x v reducesTo_S100000x35_S_d0_1 h_S_) main_v2 main_c
  let main_v4 : FVec F S35x64 .f32 := Host.absf main_arg2
  let main_cst_0 : FVec F S_ .f32 := constant S_ .f32 0x7F800000#32
  let main_v5 : FVec F S35x64 .f32 := broadcastInDim S35x64 ![] bcast_S_S35x64 main_cst_0
  let main_v6 : IVec S35x64 1 := cmpf .olt main_v4 main_v5
  let main_c_1 : IVec S_ 1 := constantI S_ 1 1#1
  let main_v7 : IVec S_ 1 := (fun x v => Host.reduce IntOp.andi x v reducesTo_S35x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S35x64 .f32 := Host.absf main_arg4
  let main_cst_4 : FVec F S_ .f32 := constant S_ .f32 0x7F800000#32
  let main_v15 : FVec F S35x64 .f32 := broadcastInDim S35x64 ![] bcast_S_S35x64 main_cst_4
  let main_v16 : IVec S35x64 1 := cmpf .olt main_v14 main_v15
  fn_part1 (F := F) main_arg5 main_arg6 main_arg7 main_arg8 main_arg9 main_v13 main_v16
-- ==== Kernel.lean ====
abbrev S100000x35 : Shape := ⟨2, ![100000, 35]⟩
abbrev S2x1600000 : Shape := ⟨2, ![2, 1600000]⟩
abbrev S35x64 : Shape := ⟨2, ![35, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x35 : Shape := ⟨2, ![1600000, 35]⟩
abbrev S1x64 : Shape := ⟨2, ![1, 64]⟩
abbrev S100000x64 : Shape := ⟨2, ![100000, 64]⟩
abbrev S5000x35 : Shape := ⟨2, ![5000, 35]⟩
abbrev S5000x64 : Shape := ⟨2, ![5000, 64]⟩
abbrev S1600000x64 : Shape := ⟨2, ![1600000, 64]⟩
abbrev S1x1 : Shape := ⟨2, ![1, 1]⟩
abbrev S5000x1 : Shape := ⟨2, ![5000, 1]⟩

abbrev nBuf : Space → Nat
  | .hbm => 63
  | .vmem => 20
  | .smem => 0
  | _ => 0

abbrev bufTy : (tb : Table) → Fin (tcTables nBuf tb) → BufTy
  | .hbm, ⟨0, _⟩ => ⟨S100000x35, .f32⟩
  | .hbm, ⟨1, _⟩ => ⟨S2x1600000, .i32⟩
  | .hbm, ⟨2, _⟩ => ⟨S35x64, .f32⟩
  | .hbm, ⟨3, _⟩ => ⟨S64, .f32⟩
  | .hbm, ⟨4, _⟩ => ⟨S35x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x35, .f32⟩
  | .hbm, ⟨36, _⟩ => ⟨S_, .f32⟩
  | .hbm, ⟨37, _⟩ => ⟨S100000x35, .f32⟩
  | .hbm, ⟨38, _⟩ => ⟨S1600000x1, .i32⟩
  | .hbm, ⟨39, _⟩ => ⟨S100000x35, .f32⟩
  | .hbm, ⟨40, _⟩ => ⟨S100000x35, .f32⟩
  | .hbm, ⟨41, _⟩ => ⟨S100000x35, .f32⟩
  | .hbm, ⟨42, _⟩ => ⟨S1x64, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S1x64, .f32⟩
  | .hbm, ⟨60, _⟩ => ⟨S1x1, .f32⟩
  | .hbm, ⟨61, _⟩ => ⟨S100000x1, .f32⟩
  | .hbm, ⟨62, _⟩ => ⟨S100000, .f32⟩
  | .local _ .vmem, ⟨0, _⟩ => ⟨S5000x35, .f32⟩
  | .local _ .vmem, ⟨1, _⟩ => ⟨S5000x35, .f32⟩
  | .local _ .vmem, ⟨2, _⟩ => ⟨S5000x35, .f32⟩
  | .local _ .vmem, ⟨3, _⟩ => ⟨S5000x35, .f32⟩
  | .local _ .vmem, ⟨4, _⟩ => ⟨S35x64, .f32⟩
  | .local _ .vmem, ⟨5, _⟩ => ⟨S1x64, .f32⟩
  | .local _ .vmem, ⟨6, _⟩ => ⟨S35x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S64x1, .f32⟩
  | .local _ .vmem, ⟨17, _⟩ => ⟨S1x1, .f32⟩
  | .local _ .vmem, ⟨18, _⟩ => ⟨S5000x1, .f32⟩
  | .local _ .vmem, ⟨19, _⟩ => ⟨S5000x1, .f32⟩
  | _, _ => ⟨S100000x35, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x35 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x35 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S35x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S35x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x35 : S_.BroadcastsInDim S100000x35 (![] : Fin 0 → Fin S100000x35.rank)
  bcast_S100000x1_S100000x35_0_1 : S100000x1.BroadcastsInDim S100000x35 (![0, 1] : Fin 2 → Fin S100000x35.rank)
  shapeCasts_S64_S1x64 : S64.ShapeCasts S1x64
  inb_S5000x35_S5000x35_0_0 : ∀ a, (![0, 0] : Fin 2 → Nat) a + S5000x35.size a ≤ S5000x35.size a
  h_S5000x35 : 0 < S5000x35.numel
  bitsLt_bf16_f32 : FTy.bits .bf16 < FTy.bits .f32
  shapeCasts_S5000x35_S5000x35 : S5000x35.ShapeCasts S5000x35
  inb_S35x64_S35x64_0_0 : ∀ a, (![0, 0] : Fin 2 → Nat) a + S35x64.size a ≤ S35x64.size a
  h_S35x64 : 0 < S35x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S1_S1x1 : S1.ShapeCasts S1x1
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  scatter_S100000_S1600000x1_S1600000_n_0_0_1_wf : ScatterDims.WF S100000 S1600000x1 S1600000 [] [0] [0] 1
  gather_S100000x35_S1600000x1_S1600000x35_1_0_n_n_0_1_135_wf : GatherDims.WF S100000x35 S1600000x1 S1600000x35 [1] [0] [] [0] [] 1 ![1, 35]
  scatter_S100000x35_S1600000x1_S1600000x35_1_0_0_1_wf : ScatterDims.WF S100000x35 S1600000x1 S1600000x35 [1] [0] [0] 1
  dot_S5000x35_S35x64_S5000x64_1_0_0_1_n_n_wf : DotDims.WF S5000x35 S35x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x35.size a ≤ S100000x35.size a
  hwx0_0 : ∀ i : grid0.Coords, EltTy.bits .f32 = 32 ∨ (Rect.block (s := S100000x35) S5000x35.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x35.size a ≤ S100000x35.size a
  hwx0_1 : ∀ i : grid0.Coords, EltTy.bits .f32 = 32 ∨ (Rect.block (s := S100000x35) S5000x35.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S35x64.size a ≤ S35x64.size a
  hwx0_2 : ∀ i : grid0.Coords, EltTy.bits .f32 = 32 ∨ (Rect.block (s := S35x64) S35x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S35x64.size a ≤ S35x64.size a
  hwx0_4 : ∀ i : grid0.Coords, EltTy.bits .f32 = 32 ∨ (Rect.block (s := S35x64) S35x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x1.size a ≤ S64x1.size a
  hwx1_5 : ∀ i : grid1.Coords, EltTy.bits .f32 = 32 ∨ (Rect.block (s := S64x1) S64x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x1.size a ≤ S100000x1.size a
  hwx1_7 : ∀ i : grid1.Coords, EltTy.bits .f32 = 32 ∨ (Rect.block (s := S100000x1) S5000x1.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x35_S1600000x1_S1600000x35_1_0_n_n_0_1_135 : GatherDims S100000x35 S1600000x1 S1600000x35 where
  offsetDims := [1]
  collapsedSliceDims := [0]
  operandBatchingDims := []
  startIndicesBatchingDims := []
  startIndexMap := [0]
  indexVectorDim := 1
  sliceSizes := ![1, 35]
  wf := gather_S100000x35_S1600000x1_S1600000x35_1_0_n_n_0_1_135_wf
def scatter_S100000x35_S1600000x1_S1600000x35_1_0_0_1 : ScatterDims S100000x35 S1600000x1 S1600000x35 where
  updateWindowDims := [1]
  insertedWindowDims := [0]
  scatterDimsToOperandDims := [0]
  indexVectorDim := 1
  wf := scatter_S100000x35_S1600000x1_S1600000x35_1_0_0_1_wf
def dot_S5000x35_S35x64_S5000x64_1_0_0_1_n_n : DotDims S5000x35 S35x64 S5000x64 where
  lhsContracting := [1]
  rhsContracting := [0]
  lhsNonContracting := [0]
  rhsNonContracting := [1]
  lhsBatch := []
  rhsBatch := []
  wf := dot_S5000x35_S35x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x35.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x35.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S35x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S35x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41) S5000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x35 : Shape := ⟨2, ![100000, 35]⟩
abbrev S2x1600000 : Shape := ⟨2, ![2, 1600000]⟩
abbrev S35x64 : Shape := ⟨2, ![35, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x35 : Shape := ⟨2, ![1600000, 35]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S1x1 : Shape := ⟨2, ![1, 1]⟩

abbrev nBuf : Space → Nat
  | .hbm => 87
  | .vmem => 0
  | .smem => 0
  | _ => 0

abbrev bufTy : (tb : Table) → Fin (tcTables nBuf tb) → BufTy
  | .hbm, ⟨0, _⟩ => ⟨S100000x35, .f32⟩
  | .hbm, ⟨1, _⟩ => ⟨S2x1600000, .i32⟩
  | .hbm, ⟨2, _⟩ => ⟨S35x64, .f32⟩
  | .hbm, ⟨3, _⟩ => ⟨S64, .f32⟩
  | .hbm, ⟨4, _⟩ => ⟨S35x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x35, .f32⟩
  | .hbm, ⟨23, _⟩ => ⟨S_, .f32⟩
  | .hbm, ⟨24, _⟩ => ⟨S100000x35, .f32⟩
  | .hbm, ⟨25, _⟩ => ⟨S1600000x1, .i32⟩
  | .hbm, ⟨26, _⟩ => ⟨S100000x35, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x35, .f32⟩
  | .hbm, ⟨38, _⟩ => ⟨S100000x35, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S_, .f32⟩
  | .hbm, ⟨80, _⟩ => ⟨S100000x64, .f32⟩
  | .hbm, ⟨81, _⟩ => ⟨S100000x64, .f32⟩
  | .hbm, ⟨82, _⟩ => ⟨S100000x1, .f32⟩
  | .hbm, ⟨83, _⟩ => ⟨S1x1, .f32⟩
  | .hbm, ⟨84, _⟩ => ⟨S100000x1, .f32⟩
  | .hbm, ⟨85, _⟩ => ⟨S100000x1, .f32⟩
  | .hbm, ⟨86, _⟩ => ⟨S100000, .f32⟩
  | _, _ => ⟨S100000x35, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x35 : S_.BroadcastsInDim S100000x35 (![] : Fin 0 → Fin S100000x35.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x35_0_1 : S100000x1.BroadcastsInDim S100000x35 (![0, 1] : Fin 2 → Fin S100000x35.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x35_S1600000x1_S1600000x35_1_0_n_n_0_1_135_wf : GatherDims.WF S100000x35 S1600000x1 S1600000x35 [1] [0] [] [0] [] 1 ![1, 35]
  scatter_S100000x35_S1600000x1_S1600000x35_1_0_0_1_wf : ScatterDims.WF S100000x35 S1600000x1 S1600000x35 [1] [0] [0] 1
  scatter_S100000_S1600000x1_S1600000_n_0_0_1_wf : ScatterDims.WF S100000 S1600000x1 S1600000 [] [0] [0] 1
  dot_S100000x35_S35x64_S100000x64_1_0_0_1_n_n_wf : DotDims.WF S100000x35 S35x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def gather_S100000x35_S1600000x1_S1600000x35_1_0_n_n_0_1_135 : GatherDims S100000x35 S1600000x1 S1600000x35 where
  offsetDims := [1]
  collapsedSliceDims := [0]
  operandBatchingDims := []
  startIndicesBatchingDims := []
  startIndexMap := [0]
  indexVectorDim := 1
  sliceSizes := ![1, 35]
  wf := gather_S100000x35_S1600000x1_S1600000x35_1_0_n_n_0_1_135_wf
def scatter_S100000x35_S1600000x1_S1600000x35_1_0_0_1 : ScatterDims S100000x35 S1600000x1 S1600000x35 where
  updateWindowDims := [1]
  insertedWindowDims := [0]
  scatterDimsToOperandDims := [0]
  indexVectorDim := 1
  wf := scatter_S100000x35_S1600000x1_S1600000x35_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x35_S35x64_S100000x64_1_0_0_1_n_n : DotDims S100000x35 S35x64 S100000x64 where
  lhsContracting := [1]
  rhsContracting := [0]
  lhsNonContracting := [0]
  rhsNonContracting := [1]
  lhsBatch := []
  rhsBatch := []
  wf := dot_S100000x35_S35x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KHost.lean ====
/-
  What the host operations around the two kernel regions compute.

  Before the first region the host builds, from the edge list, the source and destination index columns, the in-degree
  (ones added up at each destination), the reciprocal of the larger of the in-degree and one, and the first
  neighbourhood mean: the source rows of the features added up at each destination, times that reciprocal. Between
  the regions it builds the second mean the same way from the first region's result. After the second region it only
  drops the result's unit axis. Each statement below names the contents of one buffer a region reads, or the final
  result, as that closed expression of the launch memory.
-/
import proofs.«152196_j90855738180233_1_alg».proof.Proof.Gen.KernelIdeal.Frame
import Idealize.ShloMosaic.Lib.StableHlo.Run
import Idealize.ShloMosaic.Lib.ValueIdx
import Idealize.ShloMosaic.PureOps.Ideal.Laws

noncomputable section

namespace Cert.KernelIdeal.Host

open Cert.KernelIdeal Cert.KernelIdeal.Gen Idealize.ShloMosaic Idealize.ShloMosaic.TcCoe Idealize.SL.Sem Idealize.ShloMosaic.StableHlo

/-- The edge sources as an index column: a negative entry is moved up by the number of nodes. -/
def srcIdx (e : IVec S2x1600000 32) : IVec S1600000x1 32 :=
  broadcastInDim S1600000x1 ![0] bcast_S1600000_S1600000x1_0
    (select (cmpi .slt (shapeCast _ (extractStridedSlice S1x1600000 ![0, 0] e slices_S2x1600000_S1x1600000_0_0) shapeCasts_S1x1600000_S1600000) (broadcastInDim S1600000 ![] bcast_S_S1600000 (constantI S_ 32 0#32)))
      (addi (shapeCast _ (extractStridedSlice S1x1600000 ![0, 0] e slices_S2x1600000_S1x1600000_0_0) shapeCasts_S1x1600000_S1600000) (broadcastInDim S1600000 ![] bcast_S_S1600000 (constantI S_ 32 100000#32)))
      (shapeCast _ (extractStridedSlice S1x1600000 ![0, 0] e slices_S2x1600000_S1x1600000_0_0) shapeCasts_S1x1600000_S1600000))

/-- The edge destinations as an index column. -/
def dstIdx (e : IVec S2x1600000 32) : IVec S1600000x1 32 :=
  broadcastInDim S1600000x1 ![0] bcast_S1600000_S1600000x1_0
    (shapeCast _ (extractStridedSlice S1x1600000 ![1, 0] e slices_S2x1600000_S1x1600000_1_0) shapeCasts_S1x1600000_S1600000)

/-- The larger of a node's in-degree and one. -/
def maxDeg (e : IVec S2x1600000 32) : FVec Ideal S100000 .f32 :=
  maximumf (Host.scatterAdd scatter_S100000_S1600000x1_S1600000_n_0_0_1 (broadcastInDim S100000 ![] bcast_S_S100000 (constant S_ .f32 0x00000000#32)) (dstIdx e) (broadcastInDim S1600000 ![] bcast_S_S1600000 (constant S_ .f32 0x3F800000#32)))
    (broadcastInDim S100000 ![] bcast_S_S100000 (constant S_ .f32 0x3F800000#32))

/-- Its reciprocal, as a column. -/
def recipDeg (e : IVec S2x1600000 32) : FVec Ideal S100000x1 .f32 :=
  broadcastInDim S100000x1 ![0] bcast_S100000_S100000x1_0
    (Host.divf (broadcastInDim S100000 ![] bcast_S_S100000 (constant S_ .f32 0x3F800000#32)) (maxDeg e))

/-- Source rows of a 35-column array added up at each destination. -/
def agg35 (e : IVec S2x1600000 32) (x : FVec Ideal S100000x35 .f32) : FVec Ideal S100000x35 .f32 :=
  Host.scatterAdd scatter_S100000x35_S1600000x1_S1600000x35_1_0_0_1 (broadcastInDim S100000x35 ![] bcast_S_S100000x35 (constant S_ .f32 0x00000000#32)) (dstIdx e)
    (Host.gather gather_S100000x35_S1600000x1_S1600000x35_1_0_n_n_0_1_135 x (srcIdx e))

/-- Source rows of a 64-column array added up at each destination. -/
def agg64 (e : IVec S2x1600000 32) (h : FVec Ideal S100000x64 .f32) : FVec Ideal S100000x64 .f32 :=
  Host.scatterAdd scatter_S100000x64_S1600000x1_S1600000x64_1_0_0_1 (broadcastInDim S100000x64 ![] bcast_S_S100000x64 (constant S_ .f32 0x00000000#32)) (dstIdx e)
    (Host.gather gather_S100000x64_S1600000x1_S1600000x64_1_0_n_n_0_1_164 h (srcIdx e))

variable (m : (ℓ : Loc nD τ sig) → Buf (Elt Ideal) ℓ) (ρ : Dev nD → PrngReg)

/-! ## What the first region finds -/

theorem V1_arg0 (c : Dev nD) : V1 m ρ c main_arg0 = m ((c : Thread nD τ).loc main_arg0) := by
  show StableHlo.after hostOps0 _ (Proc.devRef .tc main_arg0) = _
  after_results_simp
theorem V1_arg2 (c : Dev nD) : V1 m ρ c main_arg2 = m ((c : Thread nD τ).loc main_arg2) := by
  show StableHlo.after hostOps0 _ (Proc.devRef .tc main_arg2) = _
  after_results_simp
theorem V1_arg4 (c : Dev nD) : V1 m ρ c main_arg4 = m ((c : Thread nD τ).loc main_arg4) := by
  show StableHlo.after hostOps0 _ (Proc.devRef .tc main_arg4) = _
  after_results_simp
theorem V1_v24 (c : Dev nD) : V1 m ρ c main_v24
    = mulf (agg35 (m ((c : Thread nD τ).loc main_arg1)) (m ((c : Thread nD τ).loc main_arg0)))
        (broadcastInDim S100000x35 ![0, 1] bcast_S100000x1_S100000x35_0_1 (recipDeg (m ((c : Thread nD τ).loc main_arg1)))) := by
  show StableHlo.after hostOps0 _ (Proc.devRef .tc main_v24) = _
  after_results_simp
  unfold agg35 recipDeg maxDeg dstIdx srcIdx
  rfl
theorem V1_v25 (c : Dev nD) : V1 m ρ c main_v25 = shapeCast _ (m ((c : Thread nD τ).loc main_arg3)) shapeCasts_S64_S1x64 := by
  show StableHlo.after hostOps0 _ (Proc.devRef .tc main_v25) = _
  after_results_simp
  rfl

/-! ## What the host operations before the first region leave for those between the regions -/

theorem W1_arg5 (c : Dev nD) : W1 m ρ c (Proc.devRef .tc main_arg5) = m ((c : Thread nD τ).loc main_arg5) := by
  show StableHlo.after hostOps0 _ (Proc.devRef .tc main_arg5) = _
  after_results_simp
theorem W1_arg6 (c : Dev nD) : W1 m ρ c (Proc.devRef .tc main_arg6) = m ((c : Thread nD τ).loc main_arg6) := by
  show StableHlo.after hostOps0 _ (Proc.devRef .tc main_arg6) = _
  after_results_simp
theorem W1_arg7 (c : Dev nD) : W1 m ρ c (Proc.devRef .tc main_arg7) = m ((c : Thread nD τ).loc main_arg7) := by
  show StableHlo.after hostOps0 _ (Proc.devRef .tc main_arg7) = _
  after_results_simp
theorem W1_arg8 (c : Dev nD) : W1 m ρ c (Proc.devRef .tc main_arg8) = m ((c : Thread nD τ).loc main_arg8) := by
  show StableHlo.after hostOps0 _ (Proc.devRef .tc main_arg8) = _
  after_results_simp
theorem W1_arg9 (c : Dev nD) : W1 m ρ c (Proc.devRef .tc main_arg9) = m ((c : Thread nD τ).loc main_arg9) := by
  show StableHlo.after hostOps0 _ (Proc.devRef .tc main_arg9) = _
  after_results_simp
/-- The source row of the edge list. -/
theorem W1_v1 (c : Dev nD) : W1 m ρ c (Proc.devRef .tc main_v1)
    = shapeCast _ (extractStridedSlice S1x1600000 ![0, 0] (m ((c : Thread nD τ).loc main_arg1)) slices_S2x1600000_S1x1600000_0_0) shapeCasts_S1x1600000_S1600000 := by
  show StableHlo.after hostOps0 _ (Proc.devRef .tc main_v1) = _
  after_results_simp
  rfl
/-- The destination row of the edge list. -/
theorem W1_v3 (c : Dev nD) : W1 m ρ c (Proc.devRef .tc main_v3)
    = shapeCast _ (extractStridedSlice S1x1600000 ![1, 0] (m ((c : Thread nD τ).loc main_arg1)) slices_S2x1600000_S1x1600000_1_0) shapeCasts_S1x1600000_S1600000 := by
  show StableHlo.after hostOps0 _ (Proc.devRef .tc main_v3) = _
  after_results_simp
  rfl
/-- The reciprocal in-degree column. -/
theorem W1_v12 (c : Dev nD) : W1 m ρ c (Proc.devRef .tc main_v12) = recipDeg (m ((c : Thread nD τ).loc main_arg1)) := by
  show StableHlo.after hostOps0 _ (Proc.devRef .tc main_v12) = _
  after_results_simp
  unfold recipDeg maxDeg dstIdx
  rfl

/-! ## What the second region finds -/

theorem V3_v26 (c : Dev nD) : V3 m ρ c main_v26 = (dat0 (V1 m ρ) c).arrAt 5 cfg0.N := by
  show StableHlo.after hostOps1 _ (Proc.devRef .tc main_v26) = _
  after_results_simp
  exact W2_arr m ρ c 5
theorem V3_v38 (c : Dev nD) : V3 m ρ c main_v38
    = mulf (agg64 (m ((c : Thread nD τ).loc main_arg1)) ((dat0 (V1 m ρ) c).arrAt 5 cfg0.N))
        (broadcastInDim S100000x64 ![0, 1] bcast_S100000x1_S100000x64_0_1 (recipDeg (m ((c : Thread nD τ).loc main_arg1)))) := by
  show StableHlo.after hostOps1 _ (Proc.devRef .tc main_v38) = _
  after_results_simp
  have h26 : W2 m ρ c (Proc.devRef .tc main_v26) = (dat0 (V1 m ρ) c).arrAt 5 cfg0.N := W2_arr m ρ c 5
  rw [h26, W2_of_ne m ρ c main_v3 (by decide), W2_of_ne m ρ c main_v1 (by decide),
    W2_of_ne m ρ c main_v12 (by decide), W1_v1, W1_v3, W1_v12]
  unfold agg64 dstIdx srcIdx
  rfl
theorem V3_arg5 (c : Dev nD) : V3 m ρ c main_arg5 = m ((c : Thread nD τ).loc main_arg5) := by
  show StableHlo.after hostOps1 _ (Proc.devRef .tc main_arg5) = _
  after_results_simp
  rw [W2_of_ne m ρ c main_arg5 (by decide)]
  exact W1_arg5 m ρ c
theorem V3_arg7 (c : Dev nD) : V3 m ρ c main_arg7 = m ((c : Thread nD τ).loc main_arg7) := by
  show StableHlo.after hostOps1 _ (Proc.devRef .tc main_arg7) = _
  after_results_simp
  rw [W2_of_ne m ρ c main_arg7 (by decide)]
  exact W1_arg7 m ρ c
theorem V3_arg8 (c : Dev nD) : V3 m ρ c main_arg8 = m ((c : Thread nD τ).loc main_arg8) := by
  show StableHlo.after hostOps1 _ (Proc.devRef .tc main_arg8) = _
  after_results_simp
  rw [W2_of_ne m ρ c main_arg8 (by decide)]
  exact W1_arg8 m ρ c
theorem V3_v39 (c : Dev nD) : V3 m ρ c main_v39 = shapeCast _ (m ((c : Thread nD τ).loc main_arg6)) shapeCasts_S64_S1x64 := by
  show StableHlo.after hostOps1 _ (Proc.devRef .tc main_v39) = _
  after_results_simp
  rw [W2_of_ne m ρ c main_arg6 (by decide), W1_arg6]
  rfl
theorem V3_v40 (c : Dev nD) : V3 m ρ c main_v40 = shapeCast _ (m ((c : Thread nD τ).loc main_arg9)) shapeCasts_S1_S1x1 := by
  show StableHlo.after hostOps1 _ (Proc.devRef .tc main_v40) = _
  after_results_simp
  rw [W2_of_ne m ρ c main_arg9 (by decide), W1_arg9]
  rfl

/-! ## The result -/

theorem W5_v42 (c : Dev nD) : W5 m ρ c (Proc.devRef .tc main_v42)
    = shapeCast _ ((dat1 (V3 m ρ) c).arrAt 7 cfg1.N) shapeCasts_S100000x1_S100000 := by
  show StableHlo.after hostOps2 _ (Proc.devRef .tc main_v42) = _
  after_results_simp
  have h41 : W4 m ρ c (Proc.devRef .tc main_v41) = (dat1 (V3 m ρ) c).arrAt 7 cfg1.N := W4_arr m ρ c 7
  rw [h41]
  rfl

end Cert.KernelIdeal.Host

end
-- ==== Proof.Spec.lean ====
/-
  What both programs compute, entry by entry, on the extended reals.

  A layer takes, for each node `p`, the row `p` of a neighbourhood mean and of the node features, and returns in
  column `j` the positive part of  (sum over `a` of mean (p, a) * Wl (a, j)) + (sum over `a` of x (p, a) * Wr (a, j)) + b j.
  The head is one more product with a single column, plus a constant. The neighbourhood mean is a sum over incoming
  edges divided by the larger of the in-degree and one: one side divides, the other multiplies by the reciprocal, and the
  two agree on every extended real because the divisor, being at least one, is never zero.
-/
import Idealize.ShloMosaic.Lib.ValueIdx
import Idealize.ShloMosaic.PureOps.Ideal.Laws

noncomputable section

namespace Cert.Spec

open Idealize.ShloMosaic Idealize.ShloMosaic.ValueIdx

/-- One entry of a layer, from the two rows and the two columns it depends on and the bias entry. -/
def sageAt {K : Nat} (meanRow xRow wl wr : Fin K → EReal) (b : EReal) : EReal :=
  max ((∑ a : Fin K, meanRow a * wl a) + (∑ a : Fin K, xRow a * wr a) + b) 0

/-- A layer as one function of whole arrays: entry `(p, j)` reads row `p` of `mean` and `x`, column `j` of the weights. -/
def sage {N K H : Nat} (mean x : (⟨2, ![N, K]⟩ : Shape).Idx → EReal) (Wl Wr : (⟨2, ![K, H]⟩ : Shape).Idx → EReal)
    (b : Fin H → EReal) : (⟨2, ![N, H]⟩ : Shape).Idx → EReal :=
  fun i => sageAt (fun a => mean (ix2 (i 0) a)) (fun a => x (ix2 (i 0) a)) (fun a => Wl (ix2 a (i 1)))
    (fun a => Wr (ix2 a (i 1))) (b (i 1))

theorem sage_ix2 {N K H : Nat} (mean x : (⟨2, ![N, K]⟩ : Shape).Idx → EReal) (Wl Wr : (⟨2, ![K, H]⟩ : Shape).Idx → EReal)
    (b : Fin H → EReal) (p : Fin N) (j : Fin H) :
    sage mean x Wl Wr b (ix2 p j) = sageAt (fun a => mean (ix2 p a)) (fun a => x (ix2 p a)) (fun a => Wl (ix2 a j))
      (fun a => Wr (ix2 a j)) (b j) := rfl

/-- One entry of the head: a row against the one column, plus the constant. -/
def headAt {H : Nat} (hRow w : Fin H → EReal) (b : EReal) : EReal := (∑ a : Fin H, hRow a * w a) + b

/-- The head as one function of whole arrays. -/
def head {N H : Nat} (h : (⟨2, ![N, H]⟩ : Shape).Idx → EReal) (Wfc : (⟨2, ![H, 1]⟩ : Shape).Idx → EReal) (bfc : EReal) :
    (⟨2, ![N, 1]⟩ : Shape).Idx → EReal :=
  fun i => headAt (fun a => h (ix2 (i 0) a)) (fun a => Wfc (ix2 a (i 1))) bfc

theorem head_ix2 {N H : Nat} (h : (⟨2, ![N, H]⟩ : Shape).Idx → EReal) (Wfc : (⟨2, ![H, 1]⟩ : Shape).Idx → EReal) (bfc : EReal)
    (p : Fin N) (j : Fin 1) :
    head h Wfc bfc (ix2 p j) = headAt (fun a => h (ix2 p a)) (fun a => Wfc (ix2 a j)) bfc := rfl

/-- The larger of anything and one is not zero. -/
theorem max_one_ne_zero (d : EReal) : max d 1 ≠ 0 :=
  (lt_of_lt_of_le zero_lt_one (le_max_right d 1)).ne'

/-- Multiplying by the reciprocal of a divisor that is at least one is dividing by it, on every extended real. -/
theorem mul_recip_eq_div (a d : EReal) : a * Ideal.div 1 (max d 1) = Ideal.div a (max d 1) := by
  unfold Ideal.div
  rw [if_neg (max_one_ne_zero d), if_neg (max_one_ne_zero d), one_mul]

end Cert.Spec

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.Stage1.lean ====
/-
  The first kernel region's result array is the specification's layer of the arrays the region finds.

  The region walks twenty blocks of 5000 rows. At a block the body multiplies the mean's rows and the feature rows with the
  two whole weight matrices, adds the two products and the bias row, and keeps the positive part; a change of float
  format is the identity here. So the entry it leaves at row `p` of block `t`, column `j`, depends only on row
  `5000 t + p` of the two row-blocked arrays and column `j` of the weights: it is the layer's entry at that row of the
  whole arrays. The twenty blocks tile the rows, so the array ends holding the layer everywhere.
-/
import proofs.«152196_j90855738180233_1_alg».proof.Proof.Gen.KernelIdeal.Frame
import proofs.«152196_j90855738180233_1_alg».proof.Proof.Spec
import proofs.«152196_j90855738180233_1_alg».proof.Proof.LibDot2
import Idealize.ShloMosaic.Lib.ValueIdx
import Idealize.ShloMosaic.Lib.Pipeline.Value
import Idealize.ShloMosaic.PureOps.Ideal.Laws

set_option maxRecDepth 16384

noncomputable section

namespace Cert.KernelIdeal.Stage1

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The body's result at an entry -/

theorem dot_lhs_0 (i : S5000x64.Idx) (q : dot_S5000x35_S35x64_S5000x64_1_0_0_1_n_n.contr.Idx) :
    (dot_S5000x35_S35x64_S5000x64_1_0_0_1_n_n.lhsIdx i q 0).val = (i 0).val := by
  unfold DotDims.lhsIdx
  rw [dif_neg (show ¬(0 : Fin S5000x35.rank) ∈ dot_S5000x35_S35x64_S5000x64_1_0_0_1_n_n.lhsBatch by decide), dif_pos (show (0 : Fin S5000x35.rank) ∈ dot_S5000x35_S35x64_S5000x64_1_0_0_1_n_n.lhsNonContracting by decide)]
  rfl
theorem dot_lhs_1 (i : S5000x64.Idx) (q : dot_S5000x35_S35x64_S5000x64_1_0_0_1_n_n.contr.Idx) :
    (dot_S5000x35_S35x64_S5000x64_1_0_0_1_n_n.lhsIdx i q 1).val = (q ⟨0, by decide⟩).val :=
  dot_S5000x35_S35x64_S5000x64_1_0_0_1_n_n.lhsIdx_val_of_single rfl i q
theorem dot_rhs_0 (i : S5000x64.Idx) (q : dot_S5000x35_S35x64_S5000x64_1_0_0_1_n_n.contr.Idx) :
    (dot_S5000x35_S35x64_S5000x64_1_0_0_1_n_n.rhsIdx i q 0).val = (q ⟨0, by decide⟩).val :=
  dot_S5000x35_S35x64_S5000x64_1_0_0_1_n_n.rhsIdx_val_of_single rfl i q
theorem dot_rhs_1 (i : S5000x64.Idx) (q : dot_S5000x35_S35x64_S5000x64_1_0_0_1_n_n.contr.Idx) :
    (dot_S5000x35_S35x64_S5000x64_1_0_0_1_n_n.rhsIdx i q 1).val = (i 1).val := by
  unfold DotDims.rhsIdx
  rw [dif_neg (show ¬(1 : Fin S35x64.rank) ∈ dot_S5000x35_S35x64_S5000x64_1_0_0_1_n_n.rhsBatch by decide), dif_pos (show (1 : Fin S35x64.rank) ∈ dot_S5000x35_S35x64_S5000x64_1_0_0_1_n_n.rhsNonContracting by decide)]
  rfl

/-- A block product into the zero accumulator, at row `p` and column `j`: the sum over the 35 contracted entries. -/
theorem matmul_apply (l : FVec Ideal S5000x35 .bf16) (r : FVec Ideal S35x64 .bf16) (p : Fin 5000) (j : Fin 64) :
    matmul dot_S5000x35_S35x64_S5000x64_1_0_0_1_n_n none l r (constant (F := Ideal) S5000x64 .f32 0x00000000#32) (ix2 p j)
      = ∑ a : Fin 35, l (ix2 p a) * r (ix2 a j) :=
  Cert.Lib.Dot2.matmul_zero_ix2 dot_S5000x35_S35x64_S5000x64_1_0_0_1_n_n none rfl rfl dot_lhs_0 dot_lhs_1 dot_rhs_0 dot_rhs_1 l r p j

/-- The bias row repeated down the block, at an entry. -/
theorem bias_apply (b : FVec Ideal S1x64 .f32) (p : Fin 5000) (j : Fin 64) :
    broadcastTo S5000x64 (shapeCast S1x64 b shapeCasts_S1x64_S1x64) broadcasts_S1x64_S5000x64 (ix2 p j) = b (ix2 0 j) := by
  rw [shapeCast_self]
  exact broadcastTo_apply b broadcasts_S1x64_S5000x64 (ix2 p j) (ix2 0 j) (fun a => match a with
    | ⟨0, _⟩ => by show (0 : Nat) = if (1 : Nat) = 1 then 0 else p.val; rw [if_pos rfl]
    | ⟨1, _⟩ => by show j.val = if (64 : Nat) = 1 then 0 else j.val; rw [if_neg (by decide)])

/-- What the body stores, at an entry: the layer's entry of the block's rows and the weights' columns. -/
theorem pay_apply (x mean : Vec Ideal S5000x35 .f32) (wl wr : Vec Ideal S35x64 .f32) (b : Vec Ideal S1x64 .f32)
    (p : Fin 5000) (j : Fin 64) :
    k0_pay1 (F := Ideal) x mean wl wr b (ix2 p j)
      = Cert.Spec.sageAt (fun a => mean (ix2 p a)) (fun a => x (ix2 p a)) (fun a => wl (ix2 a j)) (fun a => wr (ix2 a j))
          (b (ix2 0 j)) := by
  unfold k0_pay1 Cert.Spec.sageAt
  show max (matmul dot_S5000x35_S35x64_S5000x64_1_0_0_1_n_n none (truncf .bf16 (shapeCast S5000x35 mean shapeCasts_S5000x35_S5000x35) bitsLt_bf16_f32)
            (truncf .bf16 wl bitsLt_bf16_f32) (constant (F := Ideal) S5000x64 .f32 0x00000000#32) (ix2 p j)
        + matmul dot_S5000x35_S35x64_S5000x64_1_0_0_1_n_n none (truncf .bf16 x bitsLt_bf16_f32) (truncf .bf16 wr bitsLt_bf16_f32)
            (constant (F := Ideal) S5000x64 .f32 0x00000000#32) (ix2 p j)
        + broadcastTo S5000x64 (shapeCast S1x64 b shapeCasts_S1x64_S1x64) broadcasts_S1x64_S5000x64 (ix2 p j))
      (Ideal.ofBits .f32 0x00000000#32) = _
  rw [matmul_apply, matmul_apply, bias_apply, shapeCast_self, Ideal.ofBits_zero_f32]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds: its result array. -/
abbrev G (c : Dev nD) : S100000x64.Idx → EReal :=
  Cert.Spec.sage (V c main_v24) (V c main_arg0) (V c main_arg2) (V c main_arg4) (fun q => V c main_v25 (ix2 0 q))

/-- The printed index maps, decided over the twenty points: the row-blocked windows sit at block row `t`, the weights and
    the bias at their one block. -/
theorem idx_facts : ∀ t : Fin cfg0.N,
      win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 :=
  (by decide +kernel : ∀ t : Fin grid0.N, _)

/-- Every block row is some point's. -/
theorem idx_onto : ∀ q0 : Fin 20, ∃ t : Fin cfg0.N, win0_5.index t = ![q0.val, 0] :=
  (by decide +kernel : ∀ q0 : Fin 20, ∃ t : Fin grid0.N, win0_5.index t = ![q0.val, 0])

/-- What point `t` writes back is block `t` of the layer of the arrays the region finds. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x35) hz, View.ld_unit_zero (S := S35x64) hz, View.ld_unit_zero (S := S1x64) hz]
  obtain ⟨e00, e01, e10, e11, e20, e21, e30, e31, e40, e41, e51⟩ := idx_facts t
  funext y
  obtain ⟨p, j, rfl⟩ : ∃ (p : Fin 5000) (j : Fin 64), y = ix2 p j := ⟨y 0, y 1, eq_ix2 y⟩
  show k0_pay1 (F := Ideal) (iblk0 V c 0 t) (iblk0 V c 1 t) (iblk0 V c 2 t) (iblk0 V c 4 t) (iblk0 V c 3 t) (ix2 p j)
      = G V c (((cfg0.win 5).blk t).view.emb (ix2 p j))
  refine (pay_apply (iblk0 V c 0 t) (iblk0 V c 1 t) (iblk0 V c 2 t) (iblk0 V c 4 t) (iblk0 V c 3 t) p j).trans ?_
  have hmean : (fun a : Fin 35 => iblk0 V c 1 t (ix2 p a))
      = fun a => V c main_v24 (ix2 ((((cfg0.win 5).blk t).view.emb (ix2 p j)) 0) a) := by
    funext a
    show V c main_v24 (((cfg0.win 1).blk t).view.emb (ix2 p a)) = _
    refine congrArg (V c main_v24) (funext fun d => Fin.ext ?_)
    match d with
    | ⟨0, _⟩ => show win0_1.index t (0 : Fin 2) * 5000 + 1 * p.val = win0_5.index t (0 : Fin 2) * 5000 + 1 * p.val; omega
    | ⟨1, _⟩ => show win0_1.index t (1 : Fin 2) * 35 + 1 * a.val = a.val; omega
  have hx : (fun a : Fin 35 => iblk0 V c 0 t (ix2 p a))
      = fun a => V c main_arg0 (ix2 ((((cfg0.win 5).blk t).view.emb (ix2 p j)) 0) a) := by
    funext a
    show V c main_arg0 (((cfg0.win 0).blk t).view.emb (ix2 p a)) = _
    refine congrArg (V c main_arg0) (funext fun d => Fin.ext ?_)
    match d with
    | ⟨0, _⟩ => show win0_0.index t (0 : Fin 2) * 5000 + 1 * p.val = win0_5.index t (0 : Fin 2) * 5000 + 1 * p.val; omega
    | ⟨1, _⟩ => show win0_0.index t (1 : Fin 2) * 35 + 1 * a.val = a.val; omega
  have hwl : (fun a : Fin 35 => iblk0 V c 2 t (ix2 a j))
      = fun a => V c main_arg2 (ix2 a ((((cfg0.win 5).blk t).view.emb (ix2 p j)) 1)) := by
    funext a
    show V c main_arg2 (((cfg0.win 2).blk t).view.emb (ix2 a j)) = _
    refine congrArg (V c main_arg2) (funext fun d => Fin.ext ?_)
    match d with
    | ⟨0, _⟩ => show win0_2.index t (0 : Fin 2) * 35 + 1 * a.val = a.val; omega
    | ⟨1, _⟩ => show win0_2.index t (1 : Fin 2) * 64 + 1 * j.val = win0_5.index t (1 : Fin 2) * 64 + 1 * j.val; omega
  have hwr : (fun a : Fin 35 => iblk0 V c 4 t (ix2 a j))
      = fun a => V c main_arg4 (ix2 a ((((cfg0.win 5).blk t).view.emb (ix2 p j)) 1)) := by
    funext a
    show V c main_arg4 (((cfg0.win 4).blk t).view.emb (ix2 a j)) = _
    refine congrArg (V c main_arg4) (funext fun d => Fin.ext ?_)
    match d with
    | ⟨0, _⟩ => show win0_4.index t (0 : Fin 2) * 35 + 1 * a.val = a.val; omega
    | ⟨1, _⟩ => show win0_4.index t (1 : Fin 2) * 64 + 1 * j.val = win0_5.index t (1 : Fin 2) * 64 + 1 * j.val; omega
  have hb : iblk0 V c 3 t (ix2 0 j) = V c main_v25 (ix2 0 ((((cfg0.win 5).blk t).view.emb (ix2 p j)) 1)) := by
    show V c main_v25 (((cfg0.win 3).blk t).view.emb (ix2 0 j)) = _
    refine congrArg (V c main_v25) (funext fun d => Fin.ext ?_)
    match d with
    | ⟨0, _⟩ => show win0_3.index t (0 : Fin 2) * 1 + 1 * 0 = 0; omega
    | ⟨1, _⟩ => show win0_3.index t (1 : Fin 2) * 64 + 1 * j.val = win0_5.index t (1 : Fin 2) * 64 + 1 * j.val; omega
  rw [hmean, hx, hwl, hwr, hb]
  rfl

/-- An index of the result array is in point `t`'s block iff each coordinate is in the block's range on its axis. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v26).slice (win0_5.rect t)).set ↔ _
  rw [View.set_slice_whole, Rect.mem_set_unit]
  exact Iff.rfl

/-- The twenty blocks tile the rows: row `r` is in the block of the point at block row `r / 5000`. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- The region's result array, after its run, is the layer of the arrays it finds. -/
theorem final (c : Dev nD) : (dat0 V c).arrAt 5 cfg0.N = G V c :=
  (dat0 V c).arrAt_eq_of_cover 5 (G V c) (fun t _ => flushed_eq V c t) cover

end Cert.KernelIdeal.Stage1

end
-- ==== Proof.Stage2.lean ====
/-
  The second kernel region's result array is the specification's head of its second layer, of the arrays the region finds.

  The region walks the same twenty blocks of 5000 rows. At a block the body forms the second layer's entries of the
  block's rows (two products with the whole weight matrices, the bias row, the positive part), multiplies them with the
  one column of the last weight matrix and adds the constant. The entry it leaves at row `p` of block `t` depends only on
  row `5000 t + p` of the two row-blocked arrays: it is the head's entry at that row of the whole arrays, and the twenty
  blocks tile the rows.
-/
import proofs.«152196_j90855738180233_1_alg».proof.Proof.Gen.KernelIdeal.Frame
import proofs.«152196_j90855738180233_1_alg».proof.Proof.Spec
import proofs.«152196_j90855738180233_1_alg».proof.Proof.LibDot2
import Idealize.ShloMosaic.Lib.ValueIdx
import Idealize.ShloMosaic.Lib.Pipeline.Value
import Idealize.ShloMosaic.PureOps.Ideal.Laws

set_option maxRecDepth 16384

noncomputable section

namespace Cert.KernelIdeal.Stage2

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The body's result at an entry -/

theorem dotL_lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem dotL_lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem dotL_rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem dotL_rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

theorem dotH_lhs_0 (i : S5000x1.Idx) (q : dot_S5000x64_S64x1_S5000x1_1_0_0_1_n_n.contr.Idx) :
    (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
theorem dotH_lhs_1 (i : S5000x1.Idx) (q : dot_S5000x64_S64x1_S5000x1_1_0_0_1_n_n.contr.Idx) :
    (dot_S5000x64_S64x1_S5000x1_1_0_0_1_n_n.lhsIdx i q 1).val = (q ⟨0, by decide⟩).val :=
  dot_S5000x64_S64x1_S5000x1_1_0_0_1_n_n.lhsIdx_val_of_single rfl i q
theorem dotH_rhs_0 (i : S5000x1.Idx) (q : dot_S5000x64_S64x1_S5000x1_1_0_0_1_n_n.contr.Idx) :
    (dot_S5000x64_S64x1_S5000x1_1_0_0_1_n_n.rhsIdx i q 0).val = (q ⟨0, by decide⟩).val :=
  dot_S5000x64_S64x1_S5000x1_1_0_0_1_n_n.rhsIdx_val_of_single rfl i q
theorem dotH_rhs_1 (i : S5000x1.Idx) (q : dot_S5000x64_S64x1_S5000x1_1_0_0_1_n_n.contr.Idx) :
    (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-- A block product of the layer into the zero accumulator, at row `p` and column `a`: the sum over the 64 contracted entries. -/
theorem matmulL_apply (l : FVec Ideal S5000x64 .bf16) (r : FVec Ideal S64x64 .bf16) (p : Fin 5000) (a : Fin 64) :
    matmul dot_S5000x64_S64x64_S5000x64_1_0_0_1_n_n none l r (constant (F := Ideal) S5000x64 .f32 0x00000000#32) (ix2 p a)
      = ∑ k : Fin 64, l (ix2 p k) * r (ix2 k a) :=
  Cert.Lib.Dot2.matmul_zero_ix2 dot_S5000x64_S64x64_S5000x64_1_0_0_1_n_n none rfl rfl dotL_lhs_0 dotL_lhs_1 dotL_rhs_0 dotL_rhs_1 l r p a

/-- The head's block product into the zero accumulator, at row `p` of its one column. -/
theorem matmulH_apply (l : FVec Ideal S5000x64 .bf16) (r : FVec Ideal S64x1 .bf16) (p : Fin 5000) (j : Fin 1) :
    matmul dot_S5000x64_S64x1_S5000x1_1_0_0_1_n_n none l r (constant (F := Ideal) S5000x1 .f32 0x00000000#32) (ix2 p j)
      = ∑ a : Fin 64, l (ix2 p a) * r (ix2 a j) :=
  Cert.Lib.Dot2.matmul_zero_ix2 dot_S5000x64_S64x1_S5000x1_1_0_0_1_n_n none rfl rfl dotH_lhs_0 dotH_lhs_1 dotH_rhs_0 dotH_rhs_1 l r p j

/-- The bias row repeated down the block, at an entry. -/
theorem bias_apply (b : FVec Ideal S1x64 .f32) (p : Fin 5000) (a : Fin 64) :
    broadcastTo S5000x64 (shapeCast S1x64 b shapeCasts_S1x64_S1x64) broadcasts_S1x64_S5000x64 (ix2 p a) = b (ix2 0 a) := by
  rw [shapeCast_self]
  exact broadcastTo_apply b broadcasts_S1x64_S5000x64 (ix2 p a) (ix2 0 a) (fun d => match d with
    | ⟨0, _⟩ => by show (0 : Nat) = if (1 : Nat) = 1 then 0 else p.val; rw [if_pos rfl]
    | ⟨1, _⟩ => by show a.val = if (64 : Nat) = 1 then 0 else a.val; rw [if_neg (by decide)])

/-- The head's constant repeated down the block, at an entry. -/
theorem const_apply (b : FVec Ideal S1x1 .f32) (p : Fin 5000) (j : Fin 1) :
    broadcastTo S5000x1 (shapeCast S1x1 b shapeCasts_S1x1_S1x1) broadcasts_S1x1_S5000x1 (ix2 p j) = b (ix2 0 0) := by
  rw [shapeCast_self]
  exact broadcastTo_apply b broadcasts_S1x1_S5000x1 (ix2 p j) (ix2 0 0) (fun d => match d with
    | ⟨0, _⟩ => by show (0 : Nat) = if (1 : Nat) = 1 then 0 else p.val; rw [if_pos rfl]
    | ⟨1, _⟩ => by show (0 : Nat) = if (1 : Nat) = 1 then 0 else j.val; rw [if_pos rfl])

/-- The layer part of the body, at an entry: the layer's entry of the block's rows and the weights' columns. -/
theorem layer_apply (mean h : Vec Ideal S5000x64 .f32) (wl wr : Vec Ideal S64x64 .f32) (b : Vec Ideal S1x64 .f32)
    (p : Fin 5000) (a : Fin 64) :
    maximumf (F := Ideal) (addf (addf
        (matmul dot_S5000x64_S64x64_S5000x64_1_0_0_1_n_n none (truncf .bf16 (shapeCast S5000x64 mean shapeCasts_S5000x64_S5000x64) bitsLt_bf16_f32)
          (truncf .bf16 wl bitsLt_bf16_f32) (constant (F := Ideal) S5000x64 .f32 0x00000000#32))
        (matmul dot_S5000x64_S64x64_S5000x64_1_0_0_1_n_n none (truncf .bf16 (shapeCast S5000x64 h shapeCasts_S5000x64_S5000x64) bitsLt_bf16_f32)
          (truncf .bf16 wr bitsLt_bf16_f32) (constant (F := Ideal) S5000x64 .f32 0x00000000#32)))
        (broadcastTo S5000x64 (shapeCast S1x64 b shapeCasts_S1x64_S1x64) broadcasts_S1x64_S5000x64))
      (broadcast S5000x64 (Scalar.ofBits (F := Ideal) .f32 0x00000000#32)) (ix2 p a)
      = Cert.Spec.sageAt (fun k => mean (ix2 p k)) (fun k => h (ix2 p k)) (fun k => wl (ix2 k a)) (fun k => wr (ix2 k a))
          (b (ix2 0 a)) := by
  unfold Cert.Spec.sageAt
  show max (matmul dot_S5000x64_S64x64_S5000x64_1_0_0_1_n_n none (truncf .bf16 (shapeCast S5000x64 mean shapeCasts_S5000x64_S5000x64) bitsLt_bf16_f32)
            (truncf .bf16 wl bitsLt_bf16_f32) (constant (F := Ideal) S5000x64 .f32 0x00000000#32) (ix2 p a)
        + matmul dot_S5000x64_S64x64_S5000x64_1_0_0_1_n_n none (truncf .bf16 (shapeCast S5000x64 h shapeCasts_S5000x64_S5000x64) bitsLt_bf16_f32)
            (truncf .bf16 wr bitsLt_bf16_f32) (constant (F := Ideal) S5000x64 .f32 0x00000000#32) (ix2 p a)
        + broadcastTo S5000x64 (shapeCast S1x64 b shapeCasts_S1x64_S1x64) broadcasts_S1x64_S5000x64 (ix2 p a))
      (Ideal.ofBits .f32 0x00000000#32) = _
  rw [matmulL_apply, matmulL_apply, bias_apply, shapeCast_self, shapeCast_self, Ideal.ofBits_zero_f32]
  rfl

/-- What the body stores, at an entry: the head's entry of the layer's row. -/
theorem pay_apply (mean h : Vec Ideal S5000x64 .f32) (wl wr : Vec Ideal S64x64 .f32) (b : Vec Ideal S1x64 .f32)
    (wfc : Vec Ideal S64x1 .f32) (bfc : Vec Ideal S1x1 .f32) (p : Fin 5000) (j : Fin 1) :
    k1_pay1 (F := Ideal) mean h wl wr b wfc bfc (ix2 p j)
      = Cert.Spec.headAt (fun a => Cert.Spec.sageAt (fun k => mean (ix2 p k)) (fun k => h (ix2 p k)) (fun k => wl (ix2 k a))
            (fun k => wr (ix2 k a)) (b (ix2 0 a))) (fun a => wfc (ix2 a j)) (bfc (ix2 0 0)) := by
  unfold k1_pay1 Cert.Spec.headAt
  show matmul dot_S5000x64_S64x1_S5000x1_1_0_0_1_n_n none (truncf .bf16 (maximumf (F := Ideal) (addf (addf
        (matmul dot_S5000x64_S64x64_S5000x64_1_0_0_1_n_n none (truncf .bf16 (shapeCast S5000x64 mean shapeCasts_S5000x64_S5000x64) bitsLt_bf16_f32)
          (truncf .bf16 wl bitsLt_bf16_f32) (constant (F := Ideal) S5000x64 .f32 0x00000000#32))
        (matmul dot_S5000x64_S64x64_S5000x64_1_0_0_1_n_n none (truncf .bf16 (shapeCast S5000x64 h shapeCasts_S5000x64_S5000x64) bitsLt_bf16_f32)
          (truncf .bf16 wr bitsLt_bf16_f32) (constant (F := Ideal) S5000x64 .f32 0x00000000#32)))
        (broadcastTo S5000x64 (shapeCast S1x64 b shapeCasts_S1x64_S1x64) broadcasts_S1x64_S5000x64))
      (broadcast S5000x64 (Scalar.ofBits (F := Ideal) .f32 0x00000000#32))) bitsLt_bf16_f32)
      (truncf .bf16 wfc bitsLt_bf16_f32) (constant (F := Ideal) S5000x1 .f32 0x00000000#32) (ix2 p j)
    + broadcastTo S5000x1 (shapeCast S1x1 bfc shapeCasts_S1x1_S1x1) broadcasts_S1x1_S5000x1 (ix2 p j) = _
  rw [matmulH_apply, const_apply]
  refine congrArg (· + bfc (ix2 0 0)) (Finset.sum_congr rfl fun a _ => ?_)
  exact congrArg (· * wfc (ix2 a j)) (layer_apply mean h wl wr b p a)

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The head of the second layer of the arrays the region finds: its result array. -/
abbrev G (c : Dev nD) : S100000x1.Idx → EReal :=
  Cert.Spec.head (Cert.Spec.sage (V c main_v38) (V c main_v26) (V c main_arg5) (V c main_arg7) (fun q => V c main_v39 (ix2 0 q)))
    (V c main_arg8) (V c main_v40 (ix2 0 0))

/-- The printed index maps, decided over the twenty points: the row-blocked windows sit at block row `t`, the weights, the
    bias and the constant at their one block. -/
theorem idx_facts : ∀ t : Fin cfg1.N,
      win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (1 : Fin 2) = 0 :=
  (by decide +kernel : ∀ t : Fin grid1.N, _)

/-- Every block row is some point's. -/
theorem idx_onto : ∀ q0 : Fin 20, ∃ t : Fin cfg1.N, win1_7.index t = ![q0.val, 0] :=
  (by decide +kernel : ∀ q0 : Fin 20, ∃ t : Fin grid1.N, win1_7.index t = ![q0.val, 0])

/-- What point `t` writes back is block `t` of the head of the layer of the arrays the region finds. -/
theorem flushed_eq (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7]
  unfold out1_7
  rw [View.canon_unit_zero hz]
  simp only [View.ld_unit_zero (S := S5000x64) hz, View.ld_unit_zero (S := S64x64) hz, View.ld_unit_zero (S := S1x64) hz,
    View.ld_unit_zero (S := S64x1) hz, View.ld_unit_zero (S := S1x1) hz]
  obtain ⟨e00, e01, e10, e11, e20, e21, e30, e31, e40, e41, e50, e51, e60, e61, e71⟩ := idx_facts t
  funext y
  obtain ⟨p, j, rfl⟩ : ∃ (p : Fin 5000) (j : Fin 1), y = ix2 p j := ⟨y 0, y 1, eq_ix2 y⟩
  show k1_pay1 (F := Ideal) (iblk1 V c 0 t) (iblk1 V c 1 t) (iblk1 V c 2 t) (iblk1 V c 4 t) (iblk1 V c 3 t) (iblk1 V c 5 t) (iblk1 V c 6 t) (ix2 p j)
      = G V c (((cfg1.win 7).blk t).view.emb (ix2 p j))
  refine (pay_apply (iblk1 V c 0 t) (iblk1 V c 1 t) (iblk1 V c 2 t) (iblk1 V c 4 t) (iblk1 V c 3 t) (iblk1 V c 5 t) (iblk1 V c 6 t) p j).trans ?_
  have hmean : ∀ k : Fin 64, iblk1 V c 0 t (ix2 p k) = V c main_v38 (ix2 ((((cfg1.win 7).blk t).view.emb (ix2 p j)) 0) k) := by
    intro k
    show V c main_v38 (((cfg1.win 0).blk t).view.emb (ix2 p k)) = _
    refine congrArg (V c main_v38) (funext fun d => Fin.ext ?_)
    match d with
    | ⟨0, _⟩ => show win1_0.index t (0 : Fin 2) * 5000 + 1 * p.val = win1_7.index t (0 : Fin 2) * 5000 + 1 * p.val; omega
    | ⟨1, _⟩ => show win1_0.index t (1 : Fin 2) * 64 + 1 * k.val = k.val; omega
  have hh : ∀ k : Fin 64, iblk1 V c 1 t (ix2 p k) = V c main_v26 (ix2 ((((cfg1.win 7).blk t).view.emb (ix2 p j)) 0) k) := by
    intro k
    show V c main_v26 (((cfg1.win 1).blk t).view.emb (ix2 p k)) = _
    refine congrArg (V c main_v26) (funext fun d => Fin.ext ?_)
    match d with
    | ⟨0, _⟩ => show win1_1.index t (0 : Fin 2) * 5000 + 1 * p.val = win1_7.index t (0 : Fin 2) * 5000 + 1 * p.val; omega
    | ⟨1, _⟩ => show win1_1.index t (1 : Fin 2) * 64 + 1 * k.val = k.val; omega
  have hwl : ∀ (k a : Fin 64), iblk1 V c 2 t (ix2 k a) = V c main_arg5 (ix2 k a) := by
    intro k a
    show V c main_arg5 (((cfg1.win 2).blk t).view.emb (ix2 k a)) = _
    refine congrArg (V c main_arg5) (funext fun d => Fin.ext ?_)
    match d with
    | ⟨0, _⟩ => show win1_2.index t (0 : Fin 2) * 64 + 1 * k.val = k.val; omega
    | ⟨1, _⟩ => show win1_2.index t (1 : Fin 2) * 64 + 1 * a.val = a.val; omega
  have hwr : ∀ (k a : Fin 64), iblk1 V c 4 t (ix2 k a) = V c main_arg7 (ix2 k a) := by
    intro k a
    show V c main_arg7 (((cfg1.win 4).blk t).view.emb (ix2 k a)) = _
    refine congrArg (V c main_arg7) (funext fun d => Fin.ext ?_)
    match d with
    | ⟨0, _⟩ => show win1_4.index t (0 : Fin 2) * 64 + 1 * k.val = k.val; omega
    | ⟨1, _⟩ => show win1_4.index t (1 : Fin 2) * 64 + 1 * a.val = a.val; omega
  have hb : ∀ a : Fin 64, iblk1 V c 3 t (ix2 0 a) = V c main_v39 (ix2 0 a) := by
    intro a
    show V c main_v39 (((cfg1.win 3).blk t).view.emb (ix2 0 a)) = _
    refine congrArg (V c main_v39) (funext fun d => Fin.ext ?_)
    match d with
    | ⟨0, _⟩ => show win1_3.index t (0 : Fin 2) * 1 + 1 * 0 = 0; omega
    | ⟨1, _⟩ => show win1_3.index t (1 : Fin 2) * 64 + 1 * a.val = a.val; omega
  have hwfc : ∀ a : Fin 64, iblk1 V c 5 t (ix2 a j) = V c main_arg8 (ix2 a ((((cfg1.win 7).blk t).view.emb (ix2 p j)) 1)) := by
    intro a
    show V c main_arg8 (((cfg1.win 5).blk t).view.emb (ix2 a j)) = _
    refine congrArg (V c main_arg8) (funext fun d => Fin.ext ?_)
    match d with
    | ⟨0, _⟩ => show win1_5.index t (0 : Fin 2) * 64 + 1 * a.val = a.val; omega
    | ⟨1, _⟩ => show win1_5.index t (1 : Fin 2) * 1 + 1 * j.val = win1_7.index t (1 : Fin 2) * 1 + 1 * j.val; omega
  have hbfc : iblk1 V c 6 t (ix2 0 0) = V c main_v40 (ix2 0 0) := by
    show V c main_v40 (((cfg1.win 6).blk t).view.emb (ix2 0 0)) = _
    refine congrArg (V c main_v40) (funext fun d => Fin.ext ?_)
    match d with
    | ⟨0, _⟩ => show win1_6.index t (0 : Fin 2) * 1 + 1 * 0 = 0; omega
    | ⟨1, _⟩ => show win1_6.index t (1 : Fin 2) * 1 + 1 * 0 = 0; omega
  simp only [hmean, hh, hwl, hwr, hb, hwfc, hbfc]
  rfl

/-- An index of the result array is in point `t`'s block iff each coordinate is in the block's range on its axis. -/
theorem mem_blk (t : Fin cfg1.N) (i : S100000x1.Idx) :
    i ∈ ((cfg1.win 7).blk t).view.set ↔ ∀ a : Fin 2, win1_7.index t a * S5000x1.size a ≤ (i a).val ∧ (i a).val < win1_7.index t a * S5000x1.size a + S5000x1.size a := by
  show i ∈ ((View.whole main_v41).slice (win1_7.rect t)).set ↔ _
  rw [View.set_slice_whole, Rect.mem_set_unit]
  exact Iff.rfl

/-- The twenty blocks tile the rows: row `r` is in the block of the point at block row `r / 5000`. -/
theorem cover (i : S100000x1.Idx) :
    ∃ t : Fin cfg1.N, (cfg1.win 7).flush t = true ∧ i ∈ ((cfg1.win 7).blk t).view.set := by
  have hi0 : (i 0).val < 100000 := (i 0).isLt
  have hi1 : (i 1).val < 1 := (i 1).isLt
  obtain ⟨t, ht⟩ := idx_onto ⟨(i 0).val / 5000, by omega⟩
  have q0 : win1_7.index t (0 : Fin 2) = (i 0).val / 5000 := congrFun ht 0
  have q1 : win1_7.index t (1 : Fin 2) = 0 := congrFun ht 1
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 1 ≤ (i 1).val ∧ (i 1).val < win1_7.index t (1 : Fin 2) * 1 + 1; omega

/-- The region's result array, after its run, is the head of the layer of the arrays it finds. -/
theorem final (c : Dev nD) : (dat1 V c).arrAt 7 cfg1.N = G V c :=
  (dat1 V c).arrAt_eq_of_cover 7 (G V c) (fun t _ => flushed_eq V c t) cover

end Cert.KernelIdeal.Stage2

end
-- ==== Proof.RefLayers.lean ====
/-
  The reference's layer and head expressions are the specification's functions.

  On the host a layer is written as: the product of the mean with one weight matrix, plus the bias row repeated down the
  rows, plus the product of the features with the other weight matrix, then the larger of that and zero. Entry by entry
  each product is a sum over the contracted axis, the repeated bias is its entry in that column, and the result is the
  specification's layer entry with the two later summands in the other order.
-/
import proofs.«152196_j90855738180233_1_alg».proof.Proof.Gen.ReferenceIdeal
import proofs.«152196_j90855738180233_1_alg».proof.Proof.Spec
import proofs.«152196_j90855738180233_1_alg».proof.Proof.LibDot2
import Idealize.ShloMosaic.Lib.ValueIdx
import Idealize.ShloMosaic.Lib.Pipeline.Value
import Idealize.ShloMosaic.PureOps.Ideal.Laws

noncomputable section

namespace Cert.ReferenceIdeal.Layers

open Cert.ReferenceIdeal Cert.ReferenceIdeal.Gen Idealize.ShloMosaic Idealize.ShloMosaic.ValueIdx

/-! ### Which coordinate of each operand is the output's and which the contracted one, for the three products -/

theorem dot35_lhs_0 (i : S100000x64.Idx) (q : dot_S100000x35_S35x64_S100000x64_1_0_0_1_n_n.contr.Idx) :
    (dot_S100000x35_S35x64_S100000x64_1_0_0_1_n_n.lhsIdx i q 0).val = (i 0).val := by
  unfold DotDims.lhsIdx
  rw [dif_neg (show ¬(0 : Fin S100000x35.rank) ∈ dot_S100000x35_S35x64_S100000x64_1_0_0_1_n_n.lhsBatch by decide), dif_pos (show (0 : Fin S100000x35.rank) ∈ dot_S100000x35_S35x64_S100000x64_1_0_0_1_n_n.lhsNonContracting by decide)]
  rfl
theorem dot35_lhs_1 (i : S100000x64.Idx) (q : dot_S100000x35_S35x64_S100000x64_1_0_0_1_n_n.contr.Idx) :
    (dot_S100000x35_S35x64_S100000x64_1_0_0_1_n_n.lhsIdx i q 1).val = (q ⟨0, by decide⟩).val :=
  dot_S100000x35_S35x64_S100000x64_1_0_0_1_n_n.lhsIdx_val_of_single rfl i q
theorem dot35_rhs_0 (i : S100000x64.Idx) (q : dot_S100000x35_S35x64_S100000x64_1_0_0_1_n_n.contr.Idx) :
    (dot_S100000x35_S35x64_S100000x64_1_0_0_1_n_n.rhsIdx i q 0).val = (q ⟨0, by decide⟩).val :=
  dot_S100000x35_S35x64_S100000x64_1_0_0_1_n_n.rhsIdx_val_of_single rfl i q
theorem dot35_rhs_1 (i : S100000x64.Idx) (q : dot_S100000x35_S35x64_S100000x64_1_0_0_1_n_n.contr.Idx) :
    (dot_S100000x35_S35x64_S100000x64_1_0_0_1_n_n.rhsIdx i q 1).val = (i 1).val := by
  unfold DotDims.rhsIdx
  rw [dif_neg (show ¬(1 : Fin S35x64.rank) ∈ dot_S100000x35_S35x64_S100000x64_1_0_0_1_n_n.rhsBatch by decide), dif_pos (show (1 : Fin S35x64.rank) ∈ dot_S100000x35_S35x64_S100000x64_1_0_0_1_n_n.rhsNonContracting by decide)]
  rfl

theorem dot64_lhs_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem dot64_lhs_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
theorem dot64_rhs_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
theorem dot64_rhs_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

theorem dot1_lhs_0 (i : S100000x1.Idx) (q : dot_S100000x64_S64x1_S100000x1_1_0_0_1_n_n.contr.Idx) :
    (dot_S100000x64_S64x1_S100000x1_1_0_0_1_n_n.lhsIdx i q 0).val = (i 0).val := by
  unfold DotDims.lhsIdx
  rw [dif_neg (show ¬(0 : Fin S100000x64.rank) ∈ dot_S100000x64_S64x1_S100000x1_1_0_0_1_n_n.lhsBatch by decide), dif_pos (show (0 : Fin S100000x64.rank) ∈ dot_S100000x64_S64x1_S100000x1_1_0_0_1_n_n.lhsNonContracting by decide)]
  rfl
theorem dot1_lhs_1 (i : S100000x1.Idx) (q : dot_S100000x64_S64x1_S100000x1_1_0_0_1_n_n.contr.Idx) :
    (dot_S100000x64_S64x1_S100000x1_1_0_0_1_n_n.lhsIdx i q 1).val = (q ⟨0, by decide⟩).val :=
  dot_S100000x64_S64x1_S100000x1_1_0_0_1_n_n.lhsIdx_val_of_single rfl i q
theorem dot1_rhs_0 (i : S100000x1.Idx) (q : dot_S100000x64_S64x1_S100000x1_1_0_0_1_n_n.contr.Idx) :
    (dot_S100000x64_S64x1_S100000x1_1_0_0_1_n_n.rhsIdx i q 0).val = (q ⟨0, by decide⟩).val :=
  dot_S100000x64_S64x1_S100000x1_1_0_0_1_n_n.rhsIdx_val_of_single rfl i q
theorem dot1_rhs_1 (i : S100000x1.Idx) (q : dot_S100000x64_S64x1_S100000x1_1_0_0_1_n_n.contr.Idx) :
    (dot_S100000x64_S64x1_S100000x1_1_0_0_1_n_n.rhsIdx i q 1).val = (i 1).val := by
  unfold DotDims.rhsIdx
  rw [dif_neg (show ¬(1 : Fin S64x1.rank) ∈ dot_S100000x64_S64x1_S100000x1_1_0_0_1_n_n.rhsBatch by decide), dif_pos (show (1 : Fin S64x1.rank) ∈ dot_S100000x64_S64x1_S100000x1_1_0_0_1_n_n.rhsNonContracting by decide)]
  rfl

/-! ### Each product at an entry is the sum over the contracted axis -/

/-- Entry (p, j) of the [100000, 35] by [35, 64] product. -/
theorem dot35_ix2 (l : FVec Ideal S100000x35 .f32) (r : FVec Ideal S35x64 .f32) (p : Fin 100000) (j : Fin 64) :
    Host.dotGeneral (F := Ideal) dot_S100000x35_S35x64_S100000x64_1_0_0_1_n_n none l r (ix2 p j) = ∑ a : Fin 35, l (ix2 p a) * r (ix2 a j) := by
  simp only [Host.dotGeneral]
  rw [Ideal.dotGeneral_apply]
  exact Cert.Lib.Dot2.contraction_ix2 dot_S100000x35_S35x64_S100000x64_1_0_0_1_n_n rfl rfl dot35_lhs_0 dot35_lhs_1 dot35_rhs_0 dot35_rhs_1 l r p j

/-- Entry (p, j) of the [100000, 64] by [64, 64] product. -/
theorem dot64_ix2 (l : FVec Ideal S100000x64 .f32) (r : FVec Ideal S64x64 .f32) (p : Fin 100000) (j : Fin 64) :
    Host.dotGeneral (F := Ideal) dot_S100000x64_S64x64_S100000x64_1_0_0_1_n_n none l r (ix2 p j) = ∑ a : Fin 64, l (ix2 p a) * r (ix2 a j) := by
  simp only [Host.dotGeneral]
  rw [Ideal.dotGeneral_apply]
  exact Cert.Lib.Dot2.contraction_ix2 dot_S100000x64_S64x64_S100000x64_1_0_0_1_n_n rfl rfl dot64_lhs_0 dot64_lhs_1 dot64_rhs_0 dot64_rhs_1 l r p j

/-- Entry (p, j) of the [100000, 64] by [64, 1] product. -/
theorem dot1_ix2 (l : FVec Ideal S100000x64 .f32) (r : FVec Ideal S64x1 .f32) (p : Fin 100000) (j : Fin 1) :
    Host.dotGeneral (F := Ideal) dot_S100000x64_S64x1_S100000x1_1_0_0_1_n_n none l r (ix2 p j) = ∑ a : Fin 64, l (ix2 p a) * r (ix2 a j) := by
  simp only [Host.dotGeneral]
  rw [Ideal.dotGeneral_apply]
  exact Cert.Lib.Dot2.contraction_ix2 dot_S100000x64_S64x1_S100000x1_1_0_0_1_n_n rfl rfl dot1_lhs_0 dot1_lhs_1 dot1_rhs_0 dot1_rhs_1 l r p j

/-! ### A repeated row, column by column -/

/-- A vector of 64 made into a one-row matrix: entry (q, j) is entry j. -/
theorem row64_ix2 {α : Type} (y : S64.Idx → α) (q : Fin 1) (j : Fin 64) :
    broadcastInDim S1x64 ![1] bcast_S64_S1x64_1 y (ix2 q j) = y (ix1 j) :=
  broadcastInDim_apply _ bcast_S64_S1x64_1 y (ix2 q j) (ix1 j) (fun a => match a with
    | ⟨0, _⟩ => by show j.val = if (64 : Nat) = 1 then 0 else j.val; rw [if_neg (by decide)])

/-- A one-row matrix repeated down 100000 rows: entry (p, j) is entry (0, j). -/
theorem rows64_ix2 {α : Type} (y : S1x64.Idx → α) (p : Fin 100000) (j : Fin 64) :
    broadcastInDim S100000x64 ![0, 1] bcast_S1x64_S100000x64_0_1 y (ix2 p j) = y (ix2 0 j) :=
  broadcastInDim_apply _ bcast_S1x64_S100000x64_0_1 y (ix2 p j) (ix2 0 j) (fun a => match a with
    | ⟨0, _⟩ => by show 0 = if (1 : Nat) = 1 then 0 else p.val; rw [if_pos rfl]
    | ⟨1, _⟩ => by show j.val = if (64 : Nat) = 1 then 0 else j.val; rw [if_neg (by decide)])

/-- A single number made into a one-by-one matrix. -/
theorem row1_ix2 {α : Type} (y : S1.Idx → α) (q j : Fin 1) :
    broadcastInDim S1x1 ![1] bcast_S1_S1x1_1 y (ix2 q j) = y (ix1 0) :=
  broadcastInDim_apply _ bcast_S1_S1x1_1 y (ix2 q j) (ix1 0) (fun a => match a with
    | ⟨0, _⟩ => by show 0 = if (1 : Nat) = 1 then 0 else j.val; rw [if_pos rfl])

/-- A one-by-one matrix repeated down 100000 rows. -/
theorem rows1_ix2 {α : Type} (y : S1x1.Idx → α) (p : Fin 100000) (j : Fin 1) :
    broadcastInDim S100000x1 ![0, 1] bcast_S1x1_S100000x1_0_1 y (ix2 p j) = y (ix2 0 0) :=
  broadcastInDim_apply _ bcast_S1x1_S100000x1_0_1 y (ix2 p j) (ix2 0 0) (fun a => match a with
    | ⟨0, _⟩ => by show 0 = if (1 : Nat) = 1 then 0 else p.val; rw [if_pos rfl]
    | ⟨1, _⟩ => by show 0 = if (1 : Nat) = 1 then 0 else j.val; rw [if_pos rfl])

/-- The number zero repeated over the whole [100000, 64] array. -/
theorem zeros_ix2 (i : S100000x64.Idx) :
    broadcastInDim S100000x64 ![] bcast_S_S100000x64 (constant (F := Ideal) S_ .f32 0x00000000#32) i = (0 : EReal) := by
  rw [broadcastInDim_apply _ bcast_S_S100000x64 (constant (F := Ideal) S_ .f32 0x00000000#32) i (fun a => a.elim0) (fun a => a.elim0)]
  exact Ideal.ofBits_zero_f32

/-- The first layer as the host writes it is the specification's layer. -/
theorem layer35_eq (mean x : FVec Ideal S100000x35 .f32) (Wl Wr : FVec Ideal S35x64 .f32)
    (b : FVec Ideal S64 .f32) :
    maximumf (F := Ideal) (addf (addf (Host.dotGeneral dot_S100000x35_S35x64_S100000x64_1_0_0_1_n_n none mean Wl)
        (broadcastInDim S100000x64 ![0, 1] bcast_S1x64_S100000x64_0_1 (broadcastInDim S1x64 ![1] bcast_S64_S1x64_1 b)))
        (Host.dotGeneral dot_S100000x35_S35x64_S100000x64_1_0_0_1_n_n none x Wr))
      (broadcastInDim S100000x64 ![] bcast_S_S100000x64 (constant (F := Ideal) S_ .f32 0x00000000#32))
    = Cert.Spec.sage mean x Wl Wr (fun q => b (ix1 q)) := by
  funext i
  obtain ⟨p, j, rfl⟩ : ∃ (p : Fin 100000) (j : Fin 64), i = ix2 p j := ⟨i 0, i 1, eq_ix2 i⟩
  rw [Cert.Spec.sage_ix2, maximumf_apply, addf_apply, addf_apply, dot35_ix2, dot35_ix2, rows64_ix2, row64_ix2, zeros_ix2]
  unfold Cert.Spec.sageAt
  rw [add_right_comm]

/-- The second layer as the host writes it is the specification's layer. -/
theorem layer64_eq (mean h : FVec Ideal S100000x64 .f32) (Wl Wr : FVec Ideal S64x64 .f32)
    (b : FVec Ideal S64 .f32) :
    maximumf (F := Ideal) (addf (addf (Host.dotGeneral dot_S100000x64_S64x64_S100000x64_1_0_0_1_n_n none mean Wl)
        (broadcastInDim S100000x64 ![0, 1] bcast_S1x64_S100000x64_0_1 (broadcastInDim S1x64 ![1] bcast_S64_S1x64_1 b)))
        (Host.dotGeneral dot_S100000x64_S64x64_S100000x64_1_0_0_1_n_n none h Wr))
      (broadcastInDim S100000x64 ![] bcast_S_S100000x64 (constant (F := Ideal) S_ .f32 0x00000000#32))
    = Cert.Spec.sage mean h Wl Wr (fun q => b (ix1 q)) := by
  funext i
  obtain ⟨p, j, rfl⟩ : ∃ (p : Fin 100000) (j : Fin 64), i = ix2 p j := ⟨i 0, i 1, eq_ix2 i⟩
  rw [Cert.Spec.sage_ix2, maximumf_apply, addf_apply, addf_apply, dot64_ix2, dot64_ix2, rows64_ix2, row64_ix2, zeros_ix2]
  unfold Cert.Spec.sageAt
  rw [add_right_comm]

/-- The head as the host writes it is the specification's head. -/
theorem head_eq (h : FVec Ideal S100000x64 .f32) (Wfc : FVec Ideal S64x1 .f32)
    (bfc : FVec Ideal S1 .f32) :
    addf (F := Ideal) (Host.dotGeneral dot_S100000x64_S64x1_S100000x1_1_0_0_1_n_n none h Wfc)
      (broadcastInDim S100000x1 ![0, 1] bcast_S1x1_S100000x1_0_1 (broadcastInDim S1x1 ![1] bcast_S1_S1x1_1 bfc))
    = Cert.Spec.head h Wfc (bfc (ix1 0)) := by
  funext i
  obtain ⟨p, j, rfl⟩ : ∃ (p : Fin 100000) (j : Fin 1), i = ix2 p j := ⟨i 0, i 1, eq_ix2 i⟩
  rw [Cert.Spec.head_ix2, addf_apply, dot1_ix2, rows1_ix2, row1_ix2]
  rfl

end Cert.ReferenceIdeal.Layers

end
-- ==== Proof.Laws.lean ====
/-
  Two small laws between the two programs' spellings.

  The neighbourhood mean: one program multiplies the summed rows by the repeated reciprocal of the larger of the
  in-degree and one, the other divides them by that repeated number; entry by entry these agree on every extended real.
  The bias: one program reads it through an added unit axis, the other directly.
-/
import Idealize.ShloMosaic.Lib.ValueIdx
import Idealize.ShloMosaic.Lib.Pipeline.Value
import Idealize.ShloMosaic.Lib.IdealHost
import Idealize.ShloMosaic.PureOps.Ideal.Laws
import proofs.«152196_j90855738180233_1_alg».proof.Proof.Spec

noncomputable section

namespace Cert.Laws

open Idealize.ShloMosaic Idealize.ShloMosaic.ValueIdx

/-- Rows times the repeated reciprocal of `max deg 1` are the rows divided by the repeated `max deg 1`. -/
theorem mean_law {S S1 S0 : Shape} (dims2 : Fin S1.rank → Fin S.rank) (h2 : S1.BroadcastsInDim S dims2)
    (dims1 : Fin S0.rank → Fin S1.rank) (h1 : S0.BroadcastsInDim S1 dims1)
    (h0 : (⟨0, ![]⟩ : Shape).BroadcastsInDim S0 (![] : Fin 0 → Fin S0.rank))
    (agg : FVec Ideal S .f32) (deg : FVec Ideal S0 .f32) :
    mulf agg (broadcastInDim S dims2 h2 (broadcastInDim S1 dims1 h1
        (Host.divf (broadcastInDim S0 ![] h0 (constant (F := Ideal) ⟨0, ![]⟩ .f32 0x3F800000#32))
          (maximumf deg (broadcastInDim S0 ![] h0 (constant (F := Ideal) ⟨0, ![]⟩ .f32 0x3F800000#32))))))
    = Host.divf agg (broadcastInDim S dims2 h2 (broadcastInDim S1 dims1 h1
        (maximumf deg (broadcastInDim S0 ![] h0 (constant (F := Ideal) ⟨0, ![]⟩ .f32 0x3F800000#32))))) := by
  funext i
  unfold broadcastInDim
  show agg i * Ideal.div (Ideal.ofBits .f32 0x3F800000#32) (max (deg _) (Ideal.ofBits .f32 0x3F800000#32))
      = Ideal.div (agg i) (max (deg _) (Ideal.ofBits .f32 0x3F800000#32))
  rw [Ideal.ofBits_one_f32]
  exact Cert.Spec.mul_recip_eq_div _ _

/-- A vector read through an added leading unit axis. -/
theorem row_addUnit {n : Nat} (b : (⟨1, ![n]⟩ : Shape).Idx → EReal) (h : (⟨1, ![n]⟩ : Shape).ShapeCasts ⟨2, ![1, n]⟩)
    (q : Fin n) : shapeCast ⟨2, ![1, n]⟩ b h (ix2 0 q) = b (ix1 q) := by
  refine (shapeCast_addUnit_apply ![n] b h (ix2 0 q)).trans (congrArg b (funext fun a => ?_))
  match a with
  | ⟨0, _⟩ => rfl

end Cert.Laws

end
-- ==== Proof.Bridge.lean ====
/-
  The two idealized programs end with the same result.

  The kernel program's result buffer, read back through its five segments, is the head of the second layer of: the second
  mean (summed source rows of the first layer's result, times the reciprocal of the larger of the in-degree and one) and
  the first layer's result, itself the layer of the first mean and the features. Normalised with the mean law and the
  bias read directly, that is one closed expression of the launch memory. The reference's run ends at its own composed
  expression; its two layers and its head are the specification's functions, after which the two expressions coincide.
-/
import proofs.«152196_j90855738180233_1_alg».proof.Defs
import proofs.«152196_j90855738180233_1_alg».proof.Proof.KRun
import proofs.«152196_j90855738180233_1_alg».proof.Proof.KHost
import proofs.«152196_j90855738180233_1_alg».proof.Proof.Stage1
import proofs.«152196_j90855738180233_1_alg».proof.Proof.Stage2
import proofs.«152196_j90855738180233_1_alg».proof.Proof.Gen.ReferenceIdeal.Run
import proofs.«152196_j90855738180233_1_alg».proof.Proof.RefLayers
import proofs.«152196_j90855738180233_1_alg».proof.Proof.Laws

set_option maxRecDepth 16384

noncomputable section

namespace Cert.Bridge

open Idealize.ShloMosaic Idealize.ShloMosaic.TcCoe Idealize.ShloMosaic.ValueIdx Idealize.SL.Sem

section Kernel

open Cert.KernelIdeal Cert.KernelIdeal.Gen Cert.KernelIdeal.Host

/-- The first mean, in the multiplying and in the dividing spelling. -/
theorem mean35 (e : IVec S2x1600000 32) (x : FVec Ideal S100000x35 .f32) :
    mulf (agg35 e x) (broadcastInDim S100000x35 ![0, 1] bcast_S100000x1_S100000x35_0_1 (recipDeg e))
      = Host.divf (agg35 e x) (broadcastInDim S100000x35 ![0, 1] bcast_S100000x1_S100000x35_0_1
          (broadcastInDim S100000x1 ![0] bcast_S100000_S100000x1_0 (maxDeg e))) := by
  unfold recipDeg maxDeg
  exact Cert.Laws.mean_law _ _ _ _ _ _ _

/-- The second mean, likewise. -/
theorem mean64 (e : IVec S2x1600000 32) (h : FVec Ideal S100000x64 .f32) :
    mulf (agg64 e h) (broadcastInDim S100000x64 ![0, 1] bcast_S100000x1_S100000x64_0_1 (recipDeg e))
      = Host.divf (agg64 e h) (broadcastInDim S100000x64 ![0, 1] bcast_S100000x1_S100000x64_0_1
          (broadcastInDim S100000x1 ![0] bcast_S100000_S100000x1_0 (maxDeg e))) := by
  unfold recipDeg maxDeg
  exact Cert.Laws.mean_law _ _ _ _ _ _ _

/-- A bias vector read through its added unit axis is the vector. -/
theorem bias_row (b : FVec Ideal S64 .f32) :
    (fun q : Fin 64 => shapeCast S1x64 b shapeCasts_S64_S1x64 (ix2 0 q)) = fun q => b (ix1 q) :=
  funext fun q => Cert.Laws.row_addUnit b shapeCasts_S64_S1x64 q

/-- The head's constant read through its added unit axis. -/
theorem bias_one (b : FVec Ideal S1 .f32) : shapeCast S1x1 b shapeCasts_S1_S1x1 (ix2 0 0) = b (ix1 0) :=
  Cert.Laws.row_addUnit b shapeCasts_S1_S1x1 0

variable (m : (ℓ : Loc nD τ sig) → Buf (Elt Ideal) ℓ) (ρ : Dev nD → PrngReg)

/-- The first layer's result, as a closed expression of the launch memory. -/
def layer1 (c : Dev nD) : FVec Ideal S100000x64 .f32 :=
  Cert.Spec.sage
    (Host.divf (agg35 (m ((c.tc : Thread nD τ).loc main_arg1)) (m ((c.tc : Thread nD τ).loc main_arg0))) (broadcastInDim S100000x35 ![0, 1] bcast_S100000x1_S100000x35_0_1
      (broadcastInDim S100000x1 ![0] bcast_S100000_S100000x1_0 (maxDeg (m ((c.tc : Thread nD τ).loc main_arg1))))))
    (m ((c.tc : Thread nD τ).loc main_arg0)) (m ((c.tc : Thread nD τ).loc main_arg2)) (m ((c.tc : Thread nD τ).loc main_arg4)) (fun q => (m ((c.tc : Thread nD τ).loc main_arg3)) (ix1 q))

/-- The program's result, as a closed expression of the launch memory. -/
def result (c : Dev nD) : Buf (Elt Ideal) ((c.tc : Thread nD τ).loc main_v42) :=
  shapeCast _ (Cert.Spec.head
    (Cert.Spec.sage
      (Host.divf (agg64 (m ((c.tc : Thread nD τ).loc main_arg1)) (layer1 m c)) (broadcastInDim S100000x64 ![0, 1] bcast_S100000x1_S100000x64_0_1
        (broadcastInDim S100000x1 ![0] bcast_S100000_S100000x1_0 (maxDeg (m ((c.tc : Thread nD τ).loc main_arg1))))))
      (layer1 m c) (m ((c.tc : Thread nD τ).loc main_arg5)) (m ((c.tc : Thread nD τ).loc main_arg7)) (fun q => (m ((c.tc : Thread nD τ).loc main_arg6)) (ix1 q)))
    (m ((c.tc : Thread nD τ).loc main_arg8)) ((m ((c.tc : Thread nD τ).loc main_arg9)) (ix1 0))) shapeCasts_S100000x1_S100000

/-- The result buffer at the last segment boundary is that expression. -/
theorem kernel_value (c : Dev nD) : W5 m ρ c (Proc.devRef .tc main_v42) = result m c := by
  rw [W5_v42, Cert.KernelIdeal.Stage2.final]
  unfold Cert.KernelIdeal.Stage2.G
  rw [V3_v38, V3_v26, V3_arg5, V3_arg7, V3_arg8, V3_v39, V3_v40, Cert.KernelIdeal.Stage1.final]
  unfold Cert.KernelIdeal.Stage1.G
  rw [V1_v24, V1_arg0, V1_arg2, V1_arg4, V1_v25]
  rw [mean35, mean64, bias_row, bias_row, bias_one]
  rfl

/-- The kernel program's run, with its result at that expression and its arguments unchanged. -/
theorem kernel_run : θ_run Cert.KernelIdeal.defs (onTc (τ := τ) (Cert.KernelIdeal.main (F := Ideal))) ⟨m, fun _ => 0, ρ⟩
    (fun r => ∀ c : Dev nD,
      r.2.mem ((c.tc : Thread nD τ).loc main_v42) = result m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) :=
  (θ_run Cert.KernelIdeal.defs _ _).mono (fun r h c => ⟨(h c).1.trans (kernel_value m ρ c), (h c).2⟩)
    (Cert.KernelIdeal.ValueRun.run m ρ)

end Kernel

section Reference

open Cert.KernelIdeal.Host

/-- The reference's composed result term, from a memory that agrees with the kernel program's on the arguments, is the
    kernel program's result expression: its two layers and its head are the specification's functions, and what is left
    (the index columns, the gathers, the sums at the destinations, the in-degree) is spelt the same on both sides. -/
theorem ref_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.res_main_v60 m' c = result m c := by
  obtain ⟨h0, h1, h2, h3, h4, h5, h6, h7, h8, h9⟩ := hagree
  unfold Cert.ReferenceIdeal.Value.res_main_v60
  rw [h0, h1, h2, h3, h4, h5, h6, h7, h8, h9]
  rw [Cert.ReferenceIdeal.Layers.layer35_eq, Cert.ReferenceIdeal.Layers.layer64_eq, Cert.ReferenceIdeal.Layers.head_eq]
  unfold result layer1 agg64 agg35 maxDeg dstIdx srcIdx
  rfl

end Reference

end Cert.Bridge

end
-- ==== Proof.lean ====
/-
  The certificate's claim: the three frames, the idealization's ledger (empty), and the equality of the two idealized
  programs' results.

  Both programs compute a two-layer graph network: a neighbourhood mean (source rows summed at each destination, over the
  larger of the in-degree and one), a layer (two matrix products, a bias, the positive part), the same again on the first
  layer's result, and a one-column head. The kernel program does the two layers' dense part in two pipelined regions of
  twenty row blocks and multiplies by a reciprocal where the reference divides; on the extended reals the results are equal
  entry by entry, for any inputs. The kernel programs' frames are the generated ones; the reference's frame is its run.
-/
import proofs.«152196_j90855738180233_1_alg».proof.Defs
import proofs.«152196_j90855738180233_1_alg».proof.Proof.Gen.Kernel
import proofs.«152196_j90855738180233_1_alg».proof.Proof.Gen.Kernel.Skeleton
import proofs.«152196_j90855738180233_1_alg».proof.Proof.Gen.Kernel.Launch
import proofs.«152196_j90855738180233_1_alg».proof.Proof.Gen.Kernel.Points
import proofs.«152196_j90855738180233_1_alg».proof.Proof.Gen.Kernel.Frame
import proofs.«152196_j90855738180233_1_alg».proof.Proof.Gen.KernelIdeal
import proofs.«152196_j90855738180233_1_alg».proof.Proof.Gen.KernelIdeal.Skeleton
import proofs.«152196_j90855738180233_1_alg».proof.Proof.Gen.KernelIdeal.Launch
import proofs.«152196_j90855738180233_1_alg».proof.Proof.Gen.KernelIdeal.Points
import proofs.«152196_j90855738180233_1_alg».proof.Proof.Gen.KernelIdeal.Frame
import proofs.«152196_j90855738180233_1_alg».proof.Proof.Gen.ReferenceIdeal
import proofs.«152196_j90855738180233_1_alg».proof.Proof.Gen.ReferenceIdeal.Run
import proofs.«152196_j90855738180233_1_alg».proof.Proof.Gen.Pre_finite_inputs
import proofs.«152196_j90855738180233_1_alg».proof.Proof.Bridge
import Idealize.ShloMosaic.Adequacy
import Idealize.ShloMosaic.Init

noncomputable section

namespace Cert.Proof

open Idealize.ShloMosaic Idealize.SL.Sem

/-- The word-level kernel program's frame. -/
theorem frame_kernel : Cert.frame_Kernel := fun m ρ _ => Cert.Kernel.Gen.frame m ρ

/-- The idealized kernel program's frame. -/
theorem frame_kernelIdeal : Cert.frame_KernelIdeal := fun m ρ _ => Cert.KernelIdeal.Gen.frame m ρ

/-- The reference's frame: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing: its ledger is empty. -/
theorem preserves : Cert.preserves_Kernel_KernelIdeal := trivial

/-- From memories that agree on the arguments both idealized programs run to the same result. -/
theorem algebraic : Cert.algebraic_KernelIdeal_ReferenceIdeal := fun m ρ m' ρ' _ hagree =>
  ⟨fun c => Cert.Bridge.result m c, Cert.Bridge.kernel_run m ρ,
    (θ_run Cert.ReferenceIdeal.defs _ _).mono
      (fun _ h c => ⟨(h c).1.trans (Cert.Bridge.ref_value m m' c (hagree c)), (h c).2⟩)
      (Cert.ReferenceIdeal.Value.run (F := Ideal) m' ρ')⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
